-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) (main_arg1 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S512x512 : Shape := ⟨2, ![512, 512]⟩
abbrev S8x512 : Shape := ⟨2, ![8, 512]⟩
abbrev S8x1x512 : Shape := ⟨3, ![8, 1, 512]⟩
abbrev S8x512x1 : Shape := ⟨3, ![8, 512, 1]⟩
abbrev S8x512x512 : Shape := ⟨3, ![8, 512, 512]⟩
abbrev S1x512x512 : Shape := ⟨3, ![1, 512, 512]⟩
abbrev S64x8x512 : Shape := ⟨3, ![64, 8, 512]⟩
abbrev S64x8x8 : Shape := ⟨3, ![64, 8, 8]⟩
abbrev S64x8x1x8 : Shape := ⟨4, ![64, 8, 1, 8]⟩
abbrev S64x8x8x1 : Shape := ⟨4, ![64, 8, 8, 1]⟩
abbrev S64x8x8x8 : Shape := ⟨4, ![64, 8, 8, 8]⟩
abbrev S8x8 : Shape := ⟨2, ![8, 8]⟩
abbrev S_ : Shape := ⟨0, ![]⟩
abbrev S1x1x8x8 : Shape := ⟨4, ![1, 1, 8, 8]⟩
abbrev S64x8x64x8 : Shape := ⟨4, ![64, 8, 64, 8]⟩
abbrev S64 : Shape := ⟨1, ![64]⟩
abbrev S64x1 : Shape := ⟨2, ![64, 1]⟩
abbrev S64x2 : Shape := ⟨2, ![64, 2]⟩

abbrev nBuf : Space → Nat
  | .hbm => 62
  | .vmem => 7
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S64x8x512, .f32⟩
  | .hbm, ⟨5, _⟩ => ⟨S64x8x512, .f32⟩
  | .hbm, ⟨6, _⟩ => ⟨S64x8x8, .f32⟩
  | .hbm, ⟨7, _⟩ => ⟨S64x8x1x8, .f32⟩
  | .hbm, ⟨8, _⟩ => ⟨S64x8x8x1, .f32⟩
  | .hbm, ⟨9, _⟩ => ⟨S64x8x8x8, .f32⟩
  | .hbm, ⟨10, _⟩ => ⟨S64x8x8x8, .f32⟩
  | .hbm, ⟨11, _⟩ => ⟨S64x8x8x8, .f32⟩
  | .hbm, ⟨12, _⟩ => ⟨S8x8, .i32⟩
  | .hbm, ⟨13, _⟩ => ⟨S8x8, .i32⟩
  | .hbm, ⟨14, _⟩ => ⟨S_, .i32⟩
  | .hbm, ⟨15, _⟩ => ⟨S8x8, .i32⟩
  | .hbm, ⟨16, _⟩ => ⟨S8x8, .i32⟩
  | .hbm, ⟨17, _⟩ => ⟨S8x8, .i1⟩
  | .hbm, ⟨18, _⟩ => ⟨S8x8, .f32⟩
  | .hbm, ⟨19, _⟩ => ⟨S_, .f32⟩
  | .hbm, ⟨20, _⟩ => ⟨S8x8, .f32⟩
  | .hbm, ⟨21, _⟩ => ⟨S8x8, .f32⟩
  | .hbm, ⟨22, _⟩ => ⟨S_, .f32⟩
  | .hbm, ⟨23, _⟩ => ⟨S64x8x8x8, .f32⟩
  | .hbm, ⟨24, _⟩ => ⟨S64x8x8x8, .f32⟩
  | .hbm, ⟨25, _⟩ => ⟨S1x1x8x8, .f32⟩
  | .hbm, ⟨26, _⟩ => ⟨S64x8x8x8, .f32⟩
  | .hbm, ⟨27, _⟩ => ⟨S64x8x8x8, .f32⟩
  | .hbm, ⟨28, _⟩ => ⟨S_, .f32⟩
  | .hbm, ⟨29, _⟩ => ⟨S64x8x8, .f32⟩
  | .hbm, ⟨30, _⟩ => ⟨S_, .f32⟩
  | .hbm, ⟨31, _⟩ => ⟨S64x8x8, .f32⟩
  | .hbm, ⟨32, _⟩ => ⟨S64x8x8, .f32⟩
  | .hbm, ⟨33, _⟩ => ⟨S64x8x64x8, .f32⟩
  | .hbm, ⟨34, _⟩ => ⟨S64, .i32⟩
  | .hbm, ⟨35, _⟩ => ⟨S_, .i32⟩
  | .hbm, ⟨36, _⟩ => ⟨S64, .i32⟩
  | .hbm, ⟨37, _⟩ => ⟨S64, .i1⟩
  | .hbm, ⟨38, _⟩ => ⟨S_, .i32⟩
  | .hbm, ⟨39, _⟩ => ⟨S64, .i32⟩
  | .hbm, ⟨40, _⟩ => ⟨S64, .i32⟩
  | .hbm, ⟨41, _⟩ => ⟨S64, .i32⟩
  | .hbm, ⟨42, _⟩ => ⟨S_, .i32⟩
  | .hbm, ⟨43, _⟩ => ⟨S64, .i32⟩
  | .hbm, ⟨44, _⟩ => ⟨S64, .i1⟩
  | .hbm, ⟨45, _⟩ => ⟨S_, .i32⟩
  | .hbm, ⟨46, _⟩ => ⟨S64, .i32⟩
  | .hbm, ⟨47, _⟩ => ⟨S64, .i32⟩
  | .hbm, ⟨48, _⟩ => ⟨S64, .i32⟩
  | .hbm, ⟨49, _⟩ => ⟨S64x1, .i32⟩
  | .hbm, ⟨50, _⟩ => ⟨S64x1, .i32⟩
  | .hbm, ⟨51, _⟩ => ⟨S64x2, .i32⟩
  | .hbm, ⟨52, _⟩ => ⟨S64x8x8, .f32⟩
  | .hbm, ⟨53, _⟩ => ⟨S64x8x8, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_call0_cst : Ref sig .tc := ⟨.hbm, 22, rfl⟩
abbrev main_call0_v0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_c_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S8x512_S8x512_0_0 : ∀ a, (![0, 0] : Fin 2 → Nat) a + S8x512.size a ≤ S8x512.size a
  h_S8x512 : 0 < S8x512.numel
  shapeCasts_S8x512_S8x512 : S8x512.ShapeCasts S8x512
  shapeCasts_S8x512_S8x1x512 : S8x512.ShapeCasts S8x1x512
  shapeCasts_S8x512_S8x512x1 : S8x512.ShapeCasts S8x512x1
  broadcasts_S8x1x512_S8x512x512 : S8x1x512.Broadcasts S8x512x512
  broadcasts_S8x512x1_S8x512x512 : S8x512x1.Broadcasts S8x512x512
  iota_S512x512_d0_w32 : S512x512.Iotas .tc 32 [0]
  iota_S512x512_d1_w32 : S512x512.Iotas .tc 32 [1]
  natLt_1_32 : 1 < 32
  shapeCasts_S512x512_S1x512x512 : S512x512.ShapeCasts S1x512x512
  broadcasts_S1x512x512_S8x512x512 : S1x512x512.Broadcasts S8x512x512
  reduces_S8x512x512_S8x512 : S8x512x512.Reduces [2] S8x512
  shapeCasts_S512x512_S64x8x512 : S512x512.ShapeCasts S64x8x512
  bcast_S64x8x8_S64x8x1x8_0_1_3 : S64x8x8.BroadcastsInDim S64x8x1x8 (![0, 1, 3] : Fin 3 → Fin S64x8x1x8.rank)
  bcast_S64x8x8_S64x8x8x1_0_1_2 : S64x8x8.BroadcastsInDim S64x8x8x1 (![0, 1, 2] : Fin 3 → Fin S64x8x8x1.rank)
  bcast_S64x8x1x8_S64x8x8x8_0_1_2_3 : S64x8x1x8.BroadcastsInDim S64x8x8x8 (![0, 1, 2, 3] : Fin 4 → Fin S64x8x8x8.rank)
  bcast_S64x8x8x1_S64x8x8x8_0_1_2_3 : S64x8x8x1.BroadcastsInDim S64x8x8x8 (![0, 1, 2, 3] : Fin 4 → Fin S64x8x8x8.rank)
  bcast_S_S8x8 : S_.BroadcastsInDim S8x8 (![] : Fin 0 → Fin S8x8.rank)
  bcast_S_S64x8x8x8 : S_.BroadcastsInDim S64x8x8x8 (![] : Fin 0 → Fin S64x8x8x8.rank)
  bcast_S8x8_S1x1x8x8_2_3 : S8x8.BroadcastsInDim S1x1x8x8 (![2, 3] : Fin 2 → Fin S1x1x8x8.rank)
  bcast_S1x1x8x8_S64x8x8x8_0_1_2_3 : S1x1x8x8.BroadcastsInDim S64x8x8x8 (![0, 1, 2, 3] : Fin 4 → Fin S64x8x8x8.rank)
  reducesTo_S64x8x8x8_S64x8x8_d3 : S64x8x8x8.ReducesTo [3] S64x8x8
  h_S_ : 0 < S_.numel
  bcast_S_S64x8x8 : S_.BroadcastsInDim S64x8x8 (![] : Fin 0 → Fin S64x8x8.rank)
  shapeCasts_S512x512_S64x8x64x8 : S512x512.ShapeCasts S64x8x64x8
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  reducesTo_S64x8x8_S_d0_1_2 : S64x8x8.ReducesTo [0, 1, 2] S_
  dot_S512x512_S512x512_S512x512_1_1_0_0_n_n_wf : DotDims.WF S512x512 S512x512 S512x512 [1] [1] [0] [0] [] []
  dot_S64x8x512_S64x8x512_S64x8x8_2_2_1_1_0_0_wf : DotDims.WF S64x8x512 S64x8x512 S64x8x8 [2] [2] [1] [1] [0] [0]
  gather_S64x8x64x8_S64x2_S64x8x8_12_02_n_n_02_1_1818_wf : GatherDims.WF S64x8x64x8 S64x2 S64x8x8 [1, 2] [0, 2] [] [0, 2] [] 1 ![1, 8, 1, 8]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512.size a ≤ S512x512.size a
  hwx1_0 : ∀ i : grid1.Coords, EltTy.bits .f32 = 32 ∨ (Rect.block (s := S512x512) S8x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512.size a ≤ S512x512.size a
  hwx1_1 : ∀ i : grid1.Coords, EltTy.bits .f32 = 32 ∨ (Rect.block (s := S512x512) S8x512.size (cc1_transform_1 i) (hinb1_1 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S64x8x512_S64x8x512_S64x8x8_2_2_1_1_0_0 : DotDims S64x8x512 S64x8x512 S64x8x8 where
  lhsContracting := [2]
  rhsContracting := [2]
  lhsNonContracting := [1]
  rhsNonContracting := [1]
  lhsBatch := [0]
  rhsBatch := [0]
  wf := dot_S64x8x512_S64x8x512_S64x8x8_2_2_1_1_0_0_wf
def gather_S64x8x64x8_S64x2_S64x8x8_12_02_n_n_02_1_1818 : GatherDims S64x8x64x8 S64x2 S64x8x8 where
  offsetDims := [1, 2]
  collapsedSliceDims := [0, 2]
  operandBatchingDims := []
  startIndicesBatchingDims := []
  startIndexMap := [0, 2]
  indexVectorDim := 1
  sliceSizes := ![1, 8, 1, 8]
  wf := gather_S64x8x64x8_S64x2_S64x8x8_12_02_n_n_02_1_1818_wf

abbrev win0_0 : Pipeline.Window sig grid0 :=
  Pipeline.Window.ofSpec (Memref.whole main_arg0) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S8x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8x512.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S512x512 : Shape := ⟨2, ![512, 512]⟩
abbrev S512x1x512 : Shape := ⟨3, ![512, 1, 512]⟩
abbrev S512x512x1 : Shape := ⟨3, ![512, 512, 1]⟩
abbrev S512x512x512 : Shape := ⟨3, ![512, 512, 512]⟩
abbrev S_ : Shape := ⟨0, ![]⟩
abbrev S1x512x512 : Shape := ⟨3, ![1, 512, 512]⟩
abbrev S64x8x512 : Shape := ⟨3, ![64, 8, 512]⟩
abbrev S64x8x8 : Shape := ⟨3, ![64, 8, 8]⟩
abbrev S64x8x1x8 : Shape := ⟨4, ![64, 8, 1, 8]⟩
abbrev S64x8x8x1 : Shape := ⟨4, ![64, 8, 8, 1]⟩
abbrev S64x8x8x8 : Shape := ⟨4, ![64, 8, 8, 8]⟩
abbrev S8x8 : Shape := ⟨2, ![8, 8]⟩
abbrev S1x1x8x8 : Shape := ⟨4, ![1, 1, 8, 8]⟩
abbrev S64x8x64x8 : Shape := ⟨4, ![64, 8, 64, 8]⟩
abbrev S64 : Shape := ⟨1, ![64]⟩
abbrev S64x1 : Shape := ⟨2, ![64, 1]⟩
abbrev S64x2 : Shape := ⟨2, ![64, 2]⟩

abbrev nBuf : Space → Nat
  | .hbm => 88
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x1x512, .f32⟩
  | .hbm, ⟨5, _⟩ => ⟨S512x512x1, .f32⟩
  | .hbm, ⟨6, _⟩ => ⟨S512x512x512, .f32⟩
  | .hbm, ⟨7, _⟩ => ⟨S512x512x512, .f32⟩
  | .hbm, ⟨8, _⟩ => ⟨S512x512x512, .f32⟩
  | .hbm, ⟨9, _⟩ => ⟨S512x512, .i32⟩
  | .hbm, ⟨10, _⟩ => ⟨S512x512, .i32⟩
  | .hbm, ⟨11, _⟩ => ⟨S_, .i32⟩
  | .hbm, ⟨12, _⟩ => ⟨S512x512, .i32⟩
  | .hbm, ⟨13, _⟩ => ⟨S512x512, .i32⟩
  | .hbm, ⟨14, _⟩ => ⟨S512x512, .i1⟩
  | .hbm, ⟨15, _⟩ => ⟨S512x512, .f32⟩
  | .hbm, ⟨16, _⟩ => ⟨S_, .f32⟩
  | .hbm, ⟨17, _⟩ => ⟨S512x512, .f32⟩
  | .hbm, ⟨18, _⟩ => ⟨S512x512, .f32⟩
  | .hbm, ⟨19, _⟩ => ⟨S_, .f32⟩
  | .hbm, ⟨20, _⟩ => ⟨S512x512x512, .f32⟩
  | .hbm, ⟨21, _⟩ => ⟨S512x512x512, .f32⟩
  | .hbm, ⟨22, _⟩ => ⟨S1x512x512, .f32⟩
  | .hbm, ⟨23, _⟩ => ⟨S512x512x512, .f32⟩
  | .hbm, ⟨24, _⟩ => ⟨S512x512x512, .f32⟩
  | .hbm, ⟨25, _⟩ => ⟨S_, .f32⟩
  | .hbm, ⟨26, _⟩ => ⟨S512x512, .f32⟩
  | .hbm, ⟨27, _⟩ => ⟨S_, .f32⟩
  | .hbm, ⟨28, _⟩ => ⟨S512x512, .f32⟩
  | .hbm, ⟨29, _⟩ => ⟨S512x512, .f32⟩
  | .hbm, ⟨30, _⟩ => ⟨S64x8x512, .f32⟩
  | .hbm, ⟨31, _⟩ => ⟨S64x8x512, .f32⟩
  | .hbm, ⟨32, _⟩ => ⟨S64x8x8, .f32⟩
  | .hbm, ⟨33, _⟩ => ⟨S64x8x1x8, .f32⟩
  | .hbm, ⟨34, _⟩ => ⟨S64x8x8x1, .f32⟩
  | .hbm, ⟨35, _⟩ => ⟨S64x8x8x8, .f32⟩
  | .hbm, ⟨36, _⟩ => ⟨S64x8x8x8, .f32⟩
  | .hbm, ⟨37, _⟩ => ⟨S64x8x8x8, .f32⟩
  | .hbm, ⟨38, _⟩ => ⟨S8x8, .i32⟩
  | .hbm, ⟨39, _⟩ => ⟨S8x8, .i32⟩
  | .hbm, ⟨40, _⟩ => ⟨S_, .i32⟩
  | .hbm, ⟨41, _⟩ => ⟨S8x8, .i32⟩
  | .hbm, ⟨42, _⟩ => ⟨S8x8, .i32⟩
  | .hbm, ⟨43, _⟩ => ⟨S8x8, .i1⟩
  | .hbm, ⟨44, _⟩ => ⟨S8x8, .f32⟩
  | .hbm, ⟨45, _⟩ => ⟨S_, .f32⟩
  | .hbm, ⟨46, _⟩ => ⟨S8x8, .f32⟩
  | .hbm, ⟨47, _⟩ => ⟨S8x8, .f32⟩
  | .hbm, ⟨48, _⟩ => ⟨S_, .f32⟩
  | .hbm, ⟨49, _⟩ => ⟨S64x8x8x8, .f32⟩
  | .hbm, ⟨50, _⟩ => ⟨S64x8x8x8, .f32⟩
  | .hbm, ⟨51, _⟩ => ⟨S1x1x8x8, .f32⟩
  | .hbm, ⟨52, _⟩ => ⟨S64x8x8x8, .f32⟩
  | .hbm, ⟨53, _⟩ => ⟨S64x8x8x8, .f32⟩
  | .hbm, ⟨54, _⟩ => ⟨S_, .f32⟩
  | .hbm, ⟨55, _⟩ => ⟨S64x8x8, .f32⟩
  | .hbm, ⟨56, _⟩ => ⟨S_, .f32⟩
  | .hbm, ⟨57, _⟩ => ⟨S64x8x8, .f32⟩
  | .hbm, ⟨58, _⟩ => ⟨S64x8x8, .f32⟩
  | .hbm, ⟨59, _⟩ => ⟨S64x8x64x8, .f32⟩
  | .hbm, ⟨60, _⟩ => ⟨S64, .i32⟩
  | .hbm, ⟨61, _⟩ => ⟨S_, .i32⟩
  | .hbm, ⟨62, _⟩ => ⟨S64, .i32⟩
  | .hbm, ⟨63, _⟩ => ⟨S64, .i1⟩
  | .hbm, ⟨64, _⟩ => ⟨S_, .i32⟩
  | .hbm, ⟨65, _⟩ => ⟨S64, .i32⟩
  | .hbm, ⟨66, _⟩ => ⟨S64, .i32⟩
  | .hbm, ⟨67, _⟩ => ⟨S64, .i32⟩
  | .hbm, ⟨68, _⟩ => ⟨S_, .i32⟩
  | .hbm, ⟨69, _⟩ => ⟨S64, .i32⟩
  | .hbm, ⟨70, _⟩ => ⟨S64, .i1⟩
  | .hbm, ⟨71, _⟩ => ⟨S_, .i32⟩
  | .hbm, ⟨72, _⟩ => ⟨S64, .i32⟩
  | .hbm, ⟨73, _⟩ => ⟨S64, .i32⟩
  | .hbm, ⟨74, _⟩ => ⟨S64, .i32⟩
  | .hbm, ⟨75, _⟩ => ⟨S64x1, .i32⟩
  | .hbm, ⟨76, _⟩ => ⟨S64x1, .i32⟩
  | .hbm, ⟨77, _⟩ => ⟨S64x2, .i32⟩
  | .hbm, ⟨78, _⟩ => ⟨S64x8x8, .f32⟩
  | .hbm, ⟨79, _⟩ => ⟨S64x8x8, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_call0_cst : Ref sig .tc := ⟨.hbm, 19, rfl⟩
abbrev main_call0_v0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_call1_cst : Ref sig .tc := ⟨.hbm, 48, rfl⟩
abbrev main_call1_v0 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_6 : Ref sig .tc := ⟨.hbm, 61, rfl⟩
abbrev main_v47 : Ref sig .tc := ⟨.hbm, 62, rfl⟩
abbrev main_v48 : Ref sig .tc := ⟨.hbm, 63, rfl⟩
abbrev main_c_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_8 : Ref sig .tc := ⟨.hbm, 68, rfl⟩
abbrev main_v52 : Ref sig .tc := ⟨.hbm, 69, rfl⟩
abbrev main_v53 : Ref sig .tc := ⟨.hbm, 70, rfl⟩
abbrev main_c_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_10 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩

abbrev nD : Nat := 1
abbrev τ : Topo := Topo.v7x

variable {F : FTy → Type} [FloatOps F]

class Facts₀ : Prop where
  transposes_S512x512_S512x512_1_0 : S512x512.Transposes [1, 0] S512x512
  bcast_S512x512_S512x1x512_0_2 : S512x512.BroadcastsInDim S512x1x512 (![0, 2] : Fin 2 → Fin S512x1x512.rank)
  bcast_S512x512_S512x512x1_0_1 : S512x512.BroadcastsInDim S512x512x1 (![0, 1] : Fin 2 → Fin S512x512x1.rank)
  bcast_S512x1x512_S512x512x512_0_1_2 : S512x1x512.BroadcastsInDim S512x512x512 (![0, 1, 2] : Fin 3 → Fin S512x512x512.rank)
  bcast_S512x512x1_S512x512x512_0_1_2 : S512x512x1.BroadcastsInDim S512x512x512 (![0, 1, 2] : Fin 3 → Fin S512x512x512.rank)
  bcast_S_S512x512 : S_.BroadcastsInDim S512x512 (![] : Fin 0 → Fin S512x512.rank)
  bcast_S_S512x512x512 : S_.BroadcastsInDim S512x512x512 (![] : Fin 0 → Fin S512x512x512.rank)
  bcast_S512x512_S1x512x512_1_2 : S512x512.BroadcastsInDim S1x512x512 (![1, 2] : Fin 2 → Fin S1x512x512.rank)
  bcast_S1x512x512_S512x512x512_0_1_2 : S1x512x512.BroadcastsInDim S512x512x512 (![0, 1, 2] : Fin 3 → Fin S512x512x512.rank)
  reducesTo_S512x512x512_S512x512_d2 : S512x512x512.ReducesTo [2] S512x512
  h_S_ : 0 < S_.numel
  shapeCasts_S512x512_S64x8x512 : S512x512.ShapeCasts S64x8x512
  bcast_S64x8x8_S64x8x1x8_0_1_3 : S64x8x8.BroadcastsInDim S64x8x1x8 (![0, 1, 3] : Fin 3 → Fin S64x8x1x8.rank)
  bcast_S64x8x8_S64x8x8x1_0_1_2 : S64x8x8.BroadcastsInDim S64x8x8x1 (![0, 1, 2] : Fin 3 → Fin S64x8x8x1.rank)
  bcast_S64x8x1x8_S64x8x8x8_0_1_2_3 : S64x8x1x8.BroadcastsInDim S64x8x8x8 (![0, 1, 2, 3] : Fin 4 → Fin S64x8x8x8.rank)
  bcast_S64x8x8x1_S64x8x8x8_0_1_2_3 : S64x8x8x1.BroadcastsInDim S64x8x8x8 (![0, 1, 2, 3] : Fin 4 → Fin S64x8x8x8.rank)
  bcast_S_S8x8 : S_.BroadcastsInDim S8x8 (![] : Fin 0 → Fin S8x8.rank)
  bcast_S_S64x8x8x8 : S_.BroadcastsInDim S64x8x8x8 (![] : Fin 0 → Fin S64x8x8x8.rank)
  bcast_S8x8_S1x1x8x8_2_3 : S8x8.BroadcastsInDim S1x1x8x8 (![2, 3] : Fin 2 → Fin S1x1x8x8.rank)
  bcast_S1x1x8x8_S64x8x8x8_0_1_2_3 : S1x1x8x8.BroadcastsInDim S64x8x8x8 (![0, 1, 2, 3] : Fin 4 → Fin S64x8x8x8.rank)
  reducesTo_S64x8x8x8_S64x8x8_d3 : S64x8x8x8.ReducesTo [3] S64x8x8
  bcast_S_S64x8x8 : S_.BroadcastsInDim S64x8x8 (![] : Fin 0 → Fin S64x8x8.rank)
  shapeCasts_S512x512_S64x8x64x8 : S512x512.ShapeCasts S64x8x64x8
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  reducesTo_S64x8x8_S_d0_1_2 : S64x8x8.ReducesTo [0, 1, 2] S_
  dot_S512x512_S512x512_S512x512_1_0_0_1_n_n_wf : DotDims.WF S512x512 S512x512 S512x512 [1] [0] [0] [1] [] []
  dot_S64x8x512_S64x8x512_S64x8x8_2_2_1_1_0_0_wf : DotDims.WF S64x8x512 S64x8x512 S64x8x8 [2] [2] [1] [1] [0] [0]
  gather_S64x8x64x8_S64x2_S64x8x8_12_02_n_n_02_1_1818_wf : GatherDims.WF S64x8x64x8 S64x2 S64x8x8 [1, 2] [0, 2] [] [0, 2] [] 1 ![1, 8, 1, 8]

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S64x8x512_S64x8x512_S64x8x8_2_2_1_1_0_0 : DotDims S64x8x512 S64x8x512 S64x8x8 where
  lhsContracting := [2]
  rhsContracting := [2]
  lhsNonContracting := [1]
  rhsNonContracting := [1]
  lhsBatch := [0]
  rhsBatch := [0]
  wf := dot_S64x8x512_S64x8x512_S64x8x8_2_2_1_1_0_0_wf
def gather_S64x8x64x8_S64x2_S64x8x8_12_02_n_n_02_1_1818 : GatherDims S64x8x64x8 S64x2 S64x8x8 where
  offsetDims := [1, 2]
  collapsedSliceDims := [0, 2]
  operandBatchingDims := []
  startIndicesBatchingDims := []
  startIndexMap := [0, 2]
  indexVectorDim := 1
  sliceSizes := ![1, 8, 1, 8]
  wf := gather_S64x8x64x8_S64x2_S64x8x8_12_02_n_n_02_1_1818_wf

class Facts : Prop extends Facts₀ where

variable [Facts]
-- ==== Proof.Tail.lean ====
/-
  The part of the computation that the kernel's program and the reference share, as ONE function.

  Both programs first form an array `R : 512 × 512` (the rank sums of all pairwise similarities) and then apply the
  same chain of host operations to the two inputs and to `R`:
    * `pos n i j  = ∑ d, a0 (8 n + i, d) · a1 (8 n + j, d)`         (the per-class similarities, 64 classes of 8 rows),
    * `posRank n i j = 1 + ∑ k, max (pos n i k − pos n i j) 0 · [j ≠ k]`,
    * `diag n i j = R (8 n + i, 8 n + j)`                             (the diagonal 8 × 8 blocks of `R`, by a gather),
    * the result `1 − ((∑ n i j, posRank n i j / diag n i j) / 8) / 512`.
  The two programs differ only in how `R` is produced, so this chain is never opened: it is named here once
  (`tail`), and the reference's way of producing `R` is named beside it (`rankRef`).
-/
import proofs.«169269_j20718922235946_1_alg».proof.ReferenceIdeal
import proofs.«169269_j20718922235946_1_alg».proof.Proof.Gen.ReferenceIdeal

noncomputable section

namespace Cert.ReferenceIdeal.Tail

open Cert.ReferenceIdeal Cert.ReferenceIdeal.Gen Idealize.ShloMosaic Idealize.ShloMosaic.TcCoe Idealize.SL.Sem Idealize.ShloMosaic.StableHlo

variable {F : FTy → Type} [FloatOps F]

/-- The 8 × 8 mask that is 0 on the diagonal and 1 off it: `1 − [j = k]`. -/
def offDiag8 : (⟨S8x8, .f32⟩ : BufTy).Contents (Elt F) :=
  subf (broadcastInDim S8x8 ![] bcast_S_S8x8 (constant S_ .f32 0x3F800000#32))
    (uitofp .f32 (cmpi .eq (addi (iotaInDim S8x8 32 0) (broadcastInDim S8x8 ![] bcast_S_S8x8 (constantI S_ 32 0#32))) (iotaInDim S8x8 32 1)))

/-- The per-class similarities `pos n i j = ∑ d, a0 (8 n + i, d) · a1 (8 n + j, d)`. -/
def pos (a0 a1 : (⟨S512x512, .f32⟩ : BufTy).Contents (Elt F)) : (⟨S64x8x8, .f32⟩ : BufTy).Contents (Elt F) :=
  Host.dotGeneral dot_S64x8x512_S64x8x512_S64x8x8_2_2_1_1_0_0 none
    (shapeCast _ a0 shapeCasts_S512x512_S64x8x512) (shapeCast _ a1 shapeCasts_S512x512_S64x8x512)

/-- The rank sums inside a class: `posRank n i j = (0 + ∑ k, max (pos n i k − pos n i j) 0 · offDiag8 j k) + 1`. -/
def posRank (a0 a1 : (⟨S512x512, .f32⟩ : BufTy).Contents (Elt F)) : (⟨S64x8x8, .f32⟩ : BufTy).Contents (Elt F) :=
  addf
    (Host.reduceAdd
      (mulf
        (maximumf
          (subf
            (broadcastInDim S64x8x8x8 ![0, 1, 2, 3] bcast_S64x8x1x8_S64x8x8x8_0_1_2_3
              (broadcastInDim S64x8x1x8 ![0, 1, 3] bcast_S64x8x8_S64x8x1x8_0_1_3 (pos a0 a1)))
            (broadcastInDim S64x8x8x8 ![0, 1, 2, 3] bcast_S64x8x8x1_S64x8x8x8_0_1_2_3
              (broadcastInDim S64x8x8x1 ![0, 1, 2] bcast_S64x8x8_S64x8x8x1_0_1_2 (pos a0 a1))))
          (broadcastInDim S64x8x8x8 ![] bcast_S_S64x8x8x8 (constant S_ .f32 0x00000000#32)))
        (broadcastInDim S64x8x8x8 ![0, 1, 2, 3] bcast_S1x1x8x8_S64x8x8x8_0_1_2_3
          (broadcastInDim S1x1x8x8 ![2, 3] bcast_S8x8_S1x1x8x8_2_3 offDiag8)))
      (constant S_ .f32 0x00000000#32) reducesTo_S64x8x8x8_S64x8x8_d3 h_S_)
    (broadcastInDim S64x8x8 ![] bcast_S_S64x8x8 (constant S_ .f32 0x3F800000#32))

/-- The class numbers `0 … 63` as the gather's start indices: `n` if `n ≥ 0`, else `n + 64` (never the case). -/
def classIds : (⟨S64, .i32⟩ : BufTy).Contents (Elt F) :=
  select (cmpi .slt (iotaInDim S64 32 0) (broadcastInDim S64 ![] bcast_S_S64 (constantI S_ 32 0#32)))
    (addi (iotaInDim S64 32 0) (broadcastInDim S64 ![] bcast_S_S64 (constantI S_ 32 64#32))) (iotaInDim S64 32 0)

/-- The diagonal blocks of `R`: `diag n i j = R (8 n + i, 8 n + j)`, a gather from `R` viewed as 64 × 8 × 64 × 8 at
    the start indices `(n, n)`. -/
def diag (R : (⟨S512x512, .f32⟩ : BufTy).Contents (Elt F)) : (⟨S64x8x8, .f32⟩ : BufTy).Contents (Elt F) :=
  Host.gather gather_S64x8x64x8_S64x2_S64x8x8_12_02_n_n_02_1_1818
    (shapeCast _ R shapeCasts_S512x512_S64x8x64x8)
    (concatenate S64x2 1
      [⟨S64x1, (broadcastInDim S64x1 ![0] bcast_S64_S64x1_0 (classIds (F := F)))⟩,
       ⟨S64x1, (broadcastInDim S64x1 ![0] bcast_S64_S64x1_0 (classIds (F := F)))⟩] concatenates_S64x1_S64x1_S64x2_d1)

/-- Everything after the rank sums `R`: `1 − ((0 + ∑ n i j, posRank n i j / diag n i j) / 8) / 512`. -/
def tail (a0 a1 R : (⟨S512x512, .f32⟩ : BufTy).Contents (Elt F)) : (⟨S_, .f32⟩ : BufTy).Contents (Elt F) :=
  subf (constant S_ .f32 0x3F800000#32)
    (Host.divf
      (Host.divf
        (Host.reduceAdd (Host.divf (posRank a0 a1) (diag R)) (constant S_ .f32 0x00000000#32) reducesTo_S64x8x8_S_d0_1_2 h_S_)
        (constant S_ .f32 0x41000000#32))
      (constant S_ .f32 0x44000000#32))

/-- The 512 × 512 mask that is 0 on the diagonal and 1 off it: `1 − [j = k]`. -/
def offDiag512 : (⟨S512x512, .f32⟩ : BufTy).Contents (Elt F) :=
  subf (broadcastInDim S512x512 ![] bcast_S_S512x512 (constant S_ .f32 0x3F800000#32))
    (uitofp .f32 (cmpi .eq (addi (iotaInDim S512x512 32 0) (broadcastInDim S512x512 ![] bcast_S_S512x512 (constantI S_ 32 0#32))) (iotaInDim S512x512 32 1)))

/-- The reference's similarities `sim i j = ∑ d, a0 (i, d) · a1ᵀ (d, j)`. -/
def simRef (a0 a1 : (⟨S512x512, .f32⟩ : BufTy).Contents (Elt F)) : (⟨S512x512, .f32⟩ : BufTy).Contents (Elt F) :=
  Host.dotGeneral dot_S512x512_S512x512_S512x512_1_0_0_1_n_n none a0 (transpose S512x512 [1, 0] a1 transposes_S512x512_S512x512_1_0)

/-- The reference's rank sums: `R i j = (0 + ∑ k, max (sim i k − sim i j) 0 · offDiag512 j k) + 1`, through a
    512 × 512 × 512 intermediate. -/
def rankRef (a0 a1 : (⟨S512x512, .f32⟩ : BufTy).Contents (Elt F)) : (⟨S512x512, .f32⟩ : BufTy).Contents (Elt F) :=
  addf
    (Host.reduceAdd
      (mulf
        (maximumf
          (subf
            (broadcastInDim S512x512x512 ![0, 1, 2] bcast_S512x1x512_S512x512x512_0_1_2
              (broadcastInDim S512x1x512 ![0, 2] bcast_S512x512_S512x1x512_0_2 (simRef a0 a1)))
            (broadcastInDim S512x512x512 ![0, 1, 2] bcast_S512x512x1_S512x512x512_0_1_2
              (broadcastInDim S512x512x1 ![0, 1] bcast_S512x512_S512x512x1_0_1 (simRef a0 a1))))
          (broadcastInDim S512x512x512 ![] bcast_S_S512x512x512 (constant S_ .f32 0x00000000#32)))
        (broadcastInDim S512x512x512 ![0, 1, 2] bcast_S1x512x512_S512x512x512_0_1_2
          (broadcastInDim S1x512x512 ![1, 2] bcast_S512x512_S1x512x512_1_2 offDiag512)))
      (constant S_ .f32 0x00000000#32) reducesTo_S512x512x512_S512x512_d2 h_S_)
    (broadcastInDim S512x512 ![] bcast_S_S512x512 (constant S_ .f32 0x3F800000#32))

end Cert.ReferenceIdeal.Tail

end
-- ==== Proof.KernelTail.lean ====
/-
  The kernel program's scalar result as the shared chain of host operations applied to what its two regions leave.

  After the second region the program runs 58 host operations (three stretches; the middle one is the inlined
  `relu`). The contents of the result buffer at the last boundary are therefore a fold of these operations over the
  contents `W2` left by the second region. Walking the fold back, every intermediate buffer is the pure value of its
  operation, and only three buffers are read from `W2` itself: the two arguments and the second region's output.
  The composed term is, operation for operation, the chain `tail` that the reference applies to its own rank sums.
-/
import proofs.«169269_j20718922235946_1_alg».proof.Proof.Gen.KernelIdeal.Frame
import proofs.«169269_j20718922235946_1_alg».proof.Proof.Tail
import Idealize.ShloMosaic.Lib.StableHlo.Run

set_option maxRecDepth 16384

noncomputable section

namespace Cert.KernelIdeal.TailV

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
/-- The result buffer at the last boundary is `tail` of the two arguments and of the second region's output array, all
    three as the second region leaves them. -/
theorem W5_result (c : Dev nD) :
    W5 m ρ c (Proc.devRef .tc main_v45)
      = Cert.ReferenceIdeal.Tail.tail (F := F) (W2 m ρ c (Proc.devRef .tc main_arg0)) (W2 m ρ c (Proc.devRef .tc main_arg1))
          (W2 m ρ c (Proc.devRef .tc main_v1)) := by
  show StableHlo.after hostOps2_2 (StableHlo.after hostOps2_1 (StableHlo.after hostOps2 (W2 m ρ c))) (Proc.devRef .tc main_v45) = _
  -- the contents left by the second region are an opaque valuation from here on
  generalize W2 m ρ c = Z
  -- every intermediate buffer is its operation's value of the buffers before it
  after_results_simp
  -- the gather's start indices are a concatenation of two copies of the class numbers: its two operands likewise
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  -- what is left is the chain `tail`, operation for operation
  rfl

end Cert.KernelIdeal.TailV

end
-- ==== Proof.Spec.lean ====
/-
  The mathematics both programs compute, over the extended reals, with no program in sight.

  For two 512 × 512 arrays `a0`, `a1`:
    * the similarities      `sim p q    = ∑ d, a0 (p, d) · a1 (q, d)`,
    * the off-diagonal mask `offDiag j k = 0` if `j = k`, else `1`,
    * the rank sums of a row `rankRow row j = (∑ k, max (row k − row j) 0 · offDiag j k) + 1`,
    * the two as whole arrays, `simAll a0 a1 (p, q) = sim p q` and `rankAll S (p, j) = rankRow (S (p, ·)) j`:
      the array both programs hand to their common tail is `rankAll (simAll a0 a1)`.
  The kernel forms the mask from an integer comparison `j ≠ k` converted to a float; the reference forms it as
  `1 − [j = k]`. Both are `offDiag`: the two conversions give 0 and 1, and `1 − 1 = 0`, `1 − 0 = 1`.
  No law here needs finiteness: the two programs' sums have the same terms in the same order.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The word of `1.0` denotes the extended real `1`. -/
theorem ofBits_one : Ideal.ofBits .f32 0x3F800000#32 = 1 := by
  simp [Ideal.ofBits, Ideal.ieee, -EReal.coe_mul]; norm_num

/-- The word of `0.0` denotes the extended real `0`. -/
theorem ofBits_zero : Ideal.ofBits .f32 0x00000000#32 = 0 := Ideal.ofBits_zero_f32

/-- `0` on the diagonal, `1` off it. -/
def offDiag (j k : Fin 512) : EReal := if j = k then 0 else 1

/-- The rank sums of one row of similarities: `(∑ k, max (row k − row j) 0 · offDiag j k) + 1`. -/
def rankRow (row : Fin 512 → EReal) (j : Fin 512) : EReal :=
  (∑ k : Fin 512, max (row k - row j) 0 * offDiag j k) + 1

/-- The similarities: `sim p q = ∑ d, a0 (p, d) · a1 (q, d)`. -/
def sim (a0 a1 : (⟨2, ![512, 512]⟩ : Shape).Idx → EReal) (p q : Fin 512) : EReal :=
  ∑ d : Fin 512, a0 (ix2 p d) * a1 (ix2 q d)

/-- All pairwise similarities of the rows of two arrays: `simAll a0 a1 (p, q) = sim a0 a1 p q`. -/
def simAll (a0 a1 : (⟨2, ![512, 512]⟩ : Shape).Idx → EReal) : (⟨2, ![512, 512]⟩ : Shape).Idx → EReal :=
  fun i => sim a0 a1 (i 0) (i 1)

theorem simAll_apply (a0 a1 : (⟨2, ![512, 512]⟩ : Shape).Idx → EReal) (p q : Fin 512) :
    simAll a0 a1 (ix2 p q) = sim a0 a1 p q := rfl

/-- The rank sums of every row of an array: `rankAll S (p, j) = rankRow (S (p, ·)) j`. -/
def rankAll (S : (⟨2, ![512, 512]⟩ : Shape).Idx → EReal) : (⟨2, ![512, 512]⟩ : Shape).Idx → EReal :=
  fun i => rankRow (fun k => S (ix2 (i 0) k)) (i 1)

theorem rankAll_apply (S : (⟨2, ![512, 512]⟩ : Shape).Idx → EReal) (p j : Fin 512) :
    rankAll S (ix2 p j) = rankRow (fun k => S (ix2 p k)) j := rfl

/-- Two 32-bit words made from numbers below 512 are equal only if the numbers are. -/
theorem ofNat_inj (j k : Fin 512) : BitVec.ofNat 32 j.val = BitVec.ofNat 32 k.val ↔ j = k := by
  constructor
  · intro h
    have h' := congrArg BitVec.toNat h
    simp only [BitVec.toNat_ofNat] at h'
    have hj := j.isLt
    have hk := k.isLt
    exact Fin.ext (by omega)
  · rintro rfl; rfl

/-- Comparing a word with itself. -/
theorem cmpi_eq_self (x : BitVec 32) : IntOp.cmpi .eq x x = 1#1 := by simp [IntOp.cmpi]
theorem cmpi_ne_self (x : BitVec 32) : IntOp.cmpi .ne x x = 0#1 := by simp [IntOp.cmpi]
/-- Comparing two different words. -/
theorem cmpi_eq_of_ne {x y : BitVec 32} (h : x ≠ y) : IntOp.cmpi .eq x y = 0#1 := by
  show BitVec.ofBool (x == y) = 0#1
  rw [beq_eq_false_iff_ne.mpr h]; rfl
theorem cmpi_ne_of_ne {x y : BitVec 32} (h : x ≠ y) : IntOp.cmpi .ne x y = 1#1 := by
  show BitVec.ofBool (x != y) = 1#1
  rw [bne_iff_ne.mpr h]; rfl

/-- The reference's mask entry: `1.0 − float [j + 0 = k]` is `offDiag j k`. -/
theorem mask_ref (j k : Fin 512) :
    FloatOps.subf (F := Ideal) (FloatOps.ofBits .f32 0x3F800000#32)
        (FloatOps.uitofp .f32 (IntOp.cmpi .eq (IntOp.addi (BitVec.ofNat 32 j.val) (0#32)) (BitVec.ofNat 32 k.val)))
      = offDiag j k := by
  show Ideal.ofBits .f32 0x3F800000#32 - (((IntOp.cmpi .eq (IntOp.addi (BitVec.ofNat 32 j.val) (0#32)) (BitVec.ofNat 32 k.val)).toNat : ℝ) : EReal) = _
  rw [ofBits_one, show IntOp.addi (BitVec.ofNat 32 j.val) (0#32) = BitVec.ofNat 32 j.val from BitVec.add_zero _]
  unfold offDiag
  by_cases h : j = k
  · subst h
    rw [if_pos rfl, cmpi_eq_self]
    show (1 : EReal) - (((1 : ℕ) : ℝ) : EReal) = 0
    rw [Nat.cast_one, EReal.coe_one]
    exact EReal.sub_self (by decide) (by decide)
  · rw [if_neg h, cmpi_eq_of_ne fun e => h ((ofNat_inj j k).mp e)]
    show (1 : EReal) - (((0 : ℕ) : ℝ) : EReal) = 1
    rw [Nat.cast_zero, EReal.coe_zero, sub_zero]

/-- The kernel's mask entry: `float (widen [j ≠ k])` is `offDiag j k`. -/
theorem mask_ker (j k : Fin 512) :
    FloatOps.sitofp (F := Ideal) .f32 ((IntOp.cmpi .ne (BitVec.ofNat 32 j.val) (BitVec.ofNat 32 k.val)).setWidth 32)
      = offDiag j k := by
  show ((((IntOp.cmpi .ne (BitVec.ofNat 32 j.val) (BitVec.ofNat 32 k.val)).setWidth 32).toInt : ℝ) : EReal) = _
  unfold offDiag
  by_cases h : j = k
  · subst h
    rw [if_pos rfl, cmpi_ne_self]
    show (((0 : ℤ) : ℝ) : EReal) = 0
    rw [Int.cast_zero, EReal.coe_zero]
  · rw [if_neg h, cmpi_ne_of_ne fun e => h ((ofNat_inj j k).mp e)]
    show (((1 : ℤ) : ℝ) : EReal) = 1
    rw [Int.cast_one, EReal.coe_one]

end Cert.Spec

end
-- ==== Proof.Region0Pay.lean ====
/-
  The matmul kernel's body, read at an index.

  The body loads two 512 × 512 blocks `x0`, `x1`, narrows both to bf16 (the identity on extended reals) and
  contracts axis 1 of the first with axis 1 of the second into a zero accumulator. Entry `(p, q)` of what it stores is
  therefore `∑ d, x0 (p, d) · x1 (q, d)`: the similarity of row `p` of the first block and row `q` of the second.
-/
import proofs.«169269_j20718922235946_1_alg».proof.Proof.Gen.KernelIdeal.Skeleton
import proofs.«169269_j20718922235946_1_alg».proof.Proof.Spec
import Idealize.ShloMosaic.Lib.ValueIdx
import Idealize.ShloMosaic.PureOps.Ideal.Laws

noncomputable section

open scoped BigOperators

namespace Cert.KernelIdeal.Region0

open Cert.KernelIdeal Cert.KernelIdeal.Gen Idealize.ShloMosaic Idealize.ShloMosaic.TcCoe Idealize.ShloMosaic.ValueIdx

/-- The left operand's index at output index `i` and contraction position `q`: row `i 0`, -/
theorem lhs_0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
/-- column the contraction position. -/
theorem lhs_1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
/-- The right operand's index: row `i 1` (its rows are the output's columns), -/
theorem rhs_0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
/-- column the contraction position. -/
theorem rhs_1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

/-- THE BODY AT AN INDEX: entry `(p, q)` of what the body stores is `∑ d, x0 (p, d) · x1 (q, d)`. -/
theorem pay_apply (x0 x1 : FVec Ideal S512x512 .f32) (p q : Fin 512) :
    k0_pay1 (F := Ideal) x0 x1 (ix2 p q) = Spec.sim x0 x1 p q := by
  unfold k0_pay1 Spec.sim
  simp only [matmul]
  rw [Ideal.matmul_constant_zero_apply, ← Equiv.sum_comp (contrEquiv1 dot_S512x512_S512x512_S512x512_1_1_0_0_n_n 512 rfl rfl).symm]
  refine Finset.sum_congr rfl fun k _ => ?_
  have hk := contrEquiv1_symm_val dot_S512x512_S512x512_S512x512_1_1_0_0_n_n 512 rfl rfl k
  have el : dot_S512x512_S512x512_S512x512_1_1_0_0_n_n.lhsIdx (ix2 p q) ((contrEquiv1 dot_S512x512_S512x512_S512x512_1_1_0_0_n_n 512 rfl rfl).symm k) = ix2 p k := funext fun a => Fin.ext (by
    match a with
    | ⟨0, _⟩ => exact lhs_0 _ _
    | ⟨1, _⟩ => exact (lhs_1 _ _).trans hk)
  have er : dot_S512x512_S512x512_S512x512_1_1_0_0_n_n.rhsIdx (ix2 p q) ((contrEquiv1 dot_S512x512_S512x512_S512x512_1_1_0_0_n_n 512 rfl rfl).symm k) = ix2 q k := funext fun a => Fin.ext (by
    match a with
    | ⟨0, _⟩ => exact rhs_0 _ _
    | ⟨1, _⟩ => exact (rhs_1 _ _).trans hk)
  rw [el, er]
  rfl

end Cert.KernelIdeal.Region0

end
-- ==== Proof.Region0.lean ====
/-
  What the matmul region leaves in its output array, as ONE function of the two arrays it reads.

  The region has a single grid point whose three blocks are the whole 512 × 512 arrays, so what the point writes
  back is the body's result on the two input arrays themselves: `simAll A0 A1 (p, q) = ∑ d, A0 (p, d) · A1 (q, d)`.
-/
import proofs.«169269_j20718922235946_1_alg».proof.Proof.Gen.KernelIdeal.Frame
import proofs.«169269_j20718922235946_1_alg».proof.Proof.Region0Pay
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)
open Cert.Spec (simAll simAll_apply)

theorem hz : (![0, 0] : Fin 2 → Nat) = fun _ => 0 := funext fun a => by fin_cases a <;> rfl

/-- The body on blocks that ARE the arrays `A0`, `A1`, at an index, is `simAll A0 A1` at the same index. -/
theorem pay_block (A0 A1 : S512x512.Idx → EReal) (x0 x1 : FVec Ideal S512x512 .f32) (y i : S512x512.Idx)
    (h0 : ∀ p d : Fin 512, x0 (ix2 p d) = A0 (ix2 p d)) (h1 : ∀ p d : Fin 512, x1 (ix2 p d) = A1 (ix2 p d))
    (hi0 : (i 0).val = (y 0).val) (hi1 : (i 1).val = (y 1).val) :
    k0_pay1 (F := Ideal) x0 x1 y = simAll A0 A1 i := by
  obtain ⟨p, q, rfl⟩ : ∃ (p q : Fin 512), y = ix2 p q := ⟨y 0, y 1, eq_ix2 y⟩
  obtain ⟨p', q', rfl⟩ : ∃ (p' q' : Fin 512), i = ix2 p' q' := ⟨i 0, i 1, eq_ix2 i⟩
  obtain rfl : p' = p := Fin.ext hi0
  obtain rfl : q' = q := Fin.ext hi1
  rw [pay_apply, simAll_apply]
  unfold Spec.sim
  exact Finset.sum_congr rfl fun d _ => by rw [h0, h1]

variable (V : (c : Dev nD) → (b : Ref sig .tc) → Buf (Elt Ideal) ((c : Thread nD τ).loc b))

/-- The three windows' index maps at the one point: every block index is 0. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0)

/-- WHAT THE POINT WRITES BACK is the (whole-array) block of `simAll` of the two input arrays as the region finds them. -/
theorem flushed_eq (c : Dev nD) (t : Fin cfg0.N) :
    (dat0 V c).flushed 2 t = ((cfg0.win 2).blk t).view.read (Elt Ideal) (simAll (V c main_arg0) (V c main_arg1)) := by
  show (cfg0.win 2).cut (grid0.coords t) ((dat0 V c).after 2 t) = _
  rw [after0_2]
  unfold out0_2
  rw [View.canon_unit_zero hz]
  simp only [View.ld_unit_zero (S := S512x512) hz]
  obtain ⟨e00, e01, e10, e11, e20, e21⟩ := idx_facts t
  funext y
  show k0_pay1 (F := Ideal) (iblk0 V c 0 t) (iblk0 V c 1 t) y = simAll (V c main_arg0) (V c main_arg1) (((cfg0.win 2).blk t).view.emb y)
  refine pay_block (V c main_arg0) (V c main_arg1) (iblk0 V c 0 t) (iblk0 V c 1 t) y _ (fun p d => ?_) (fun p d => ?_) ?_ ?_
  · show V c main_arg0 (((cfg0.win 0).blk t).view.emb (ix2 p d)) = V c main_arg0 (ix2 p d)
    refine congrArg (V c main_arg0) (funext fun a => Fin.ext ?_)
    match a with
    | ⟨0, _⟩ => show win0_0.index t (0 : Fin 2) * 512 + 1 * p.val = p.val; rw [e00]; omega
    | ⟨1, _⟩ => show win0_0.index t (1 : Fin 2) * 512 + 1 * d.val = d.val; rw [e01]; omega
  · show V c main_arg1 (((cfg0.win 1).blk t).view.emb (ix2 p d)) = V c main_arg1 (ix2 p d)
    refine congrArg (V c main_arg1) (funext fun a => Fin.ext ?_)
    match a with
    | ⟨0, _⟩ => show win0_1.index t (0 : Fin 2) * 512 + 1 * p.val = p.val; rw [e10]; omega
    | ⟨1, _⟩ => show win0_1.index t (1 : Fin 2) * 512 + 1 * d.val = d.val; rw [e11]; omega
  · show win0_2.index t (0 : Fin 2) * 512 + 1 * (y 0).val = (y 0).val; rw [e20]; omega
  · show win0_2.index t (1 : Fin 2) * 512 + 1 * (y 1).val = (y 1).val; rw [e21]; omega

/-- An index of the output array is in the point's block iff each coordinate is in the block's range on its axis. -/
theorem mem_blk (t : Fin cfg0.N) (i : S512x512.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v0).slice (win0_2.rect t)).set ↔ _
  rw [View.set_slice_whole, Rect.mem_set_unit]
  exact Iff.rfl

/-- The one block is the whole array. -/
theorem cover (i : S512x512.Idx) : ∃ t : Fin cfg0.N, (cfg0.win 2).flush t = true ∧ i ∈ ((cfg0.win 2).blk t).view.set := by
  have hi0 : (i 0).val < 512 := (i 0).isLt
  have hi1 : (i 1).val < 512 := (i 1).isLt
  obtain ⟨-, -, -, -, e20, e21⟩ := idx_facts t0_0
  refine ⟨t0_0, flush0_2 t0_0, ?_⟩
  rw [mem_blk]
  intro a
  match a with
  | ⟨0, _⟩ => show win0_2.index t0_0 (0 : Fin 2) * 512 ≤ (i 0).val ∧ (i 0).val < win0_2.index t0_0 (0 : Fin 2) * 512 + 512; rw [e20]; omega
  | ⟨1, _⟩ => show win0_2.index t0_0 (1 : Fin 2) * 512 ≤ (i 1).val ∧ (i 1).val < win0_2.index t0_0 (1 : Fin 2) * 512 + 512; rw [e21]; omega

/-- THE OUTPUT ARRAY after the region: all pairwise similarities of the rows of the two input arrays. -/
theorem final (c : Dev nD) : (dat0 V c).arrAt 2 cfg0.N = simAll (V c main_arg0) (V c main_arg1) :=
  (dat0 V c).arrAt_eq_of_cover 2 (simAll (V c main_arg0) (V c main_arg1)) (fun t _ => flushed_eq V c t) cover

end Cert.KernelIdeal.Region0

end
-- ==== Proof.Region1Pay.lean ====
/-
  The rank-sum kernel's body, read at an index.

  The body loads a block `x` of 8 rows of the similarities (8 × 512) and stores
    `(∑ k, max (x (r, k) − x (r, j)) 0 · mask (j, k)) + 1`        at `(r, j)`,
  where the 8 × 512 × 512 intermediate `x (r, k) − x (r, j)` is built from two reshapes of `x` (to 8 × 1 × 512 and to
  8 × 512 × 1) broadcast along the missing axis, and `mask (j, k)` is the integer comparison `j ≠ k` of two index
  grids, widened and converted to a float. Entry by entry this is `rankRow` of row `r` of the block.
-/
import proofs.«169269_j20718922235946_1_alg».proof.Proof.Gen.KernelIdeal.Skeleton
import proofs.«169269_j20718922235946_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Region1

open Cert.KernelIdeal Cert.KernelIdeal.Gen Idealize.ShloMosaic Idealize.ShloMosaic.TcCoe Idealize.ShloMosaic.ValueIdx

variable {α : Type}

/-- The block with a unit middle axis, broadcast to 8 × 512 × 512: entry `(r, j, k)` reads `(r, k)`. -/
theorem alongLast_apply (x : S8x512.Idx → α) (h1 : S8x512.ShapeCasts S8x1x512) (h2 : S8x1x512.Broadcasts S8x512x512)
    (r : Fin 8) (j k : Fin 512) :
    broadcastTo S8x512x512 (shapeCast S8x1x512 x h1) h2 (ix3 r j k) = x (ix2 r k) := by
  refine (broadcastTo_apply _ h2 (ix3 r j k) (ix3 r (0 : Fin 1) k) fun a => ?_).trans ?_
  · match a with
    | ⟨0, _⟩ => show r.val = if (8 : ℕ) = 1 then 0 else r.val; rw [if_neg (by decide)]
    | ⟨1, _⟩ => show 0 = if (1 : ℕ) = 1 then 0 else j.val; rw [if_pos rfl]
    | ⟨2, _⟩ => show k.val = if (512 : ℕ) = 1 then 0 else k.val; rw [if_neg (by decide)]
  · refine shapeCast_apply x h1 _ (ix2 r k) ?_
    rw [Shape.rowMajor_val_two, Shape.rowMajor_val_three]
    show r.val * 512 + k.val = (r.val * 1 + 0) * 512 + k.val
    omega

/-- The block with a unit last axis, broadcast to 8 × 512 × 512: entry `(r, j, k)` reads `(r, j)`. -/
theorem alongMiddle_apply (x : S8x512.Idx → α) (h1 : S8x512.ShapeCasts S8x512x1) (h2 : S8x512x1.Broadcasts S8x512x512)
    (r : Fin 8) (j k : Fin 512) :
    broadcastTo S8x512x512 (shapeCast S8x512x1 x h1) h2 (ix3 r j k) = x (ix2 r j) := by
  refine (broadcastTo_apply _ h2 (ix3 r j k) (ix3 r j (0 : Fin 1)) fun a => ?_).trans ?_
  · match a with
    | ⟨0, _⟩ => show r.val = if (8 : ℕ) = 1 then 0 else r.val; rw [if_neg (by decide)]
    | ⟨1, _⟩ => show j.val = if (512 : ℕ) = 1 then 0 else j.val; rw [if_neg (by decide)]
    | ⟨2, _⟩ => show 0 = if (1 : ℕ) = 1 then 0 else k.val; rw [if_pos rfl]
  · refine shapeCast_apply x h1 _ (ix2 r j) ?_
    rw [Shape.rowMajor_val_two, Shape.rowMajor_val_three]
    show r.val * 512 + j.val = (r.val * 512 + j.val) * 1 + 0
    omega

/-- A 512 × 512 array with a unit leading axis, broadcast to 8 × 512 × 512: entry `(r, j, k)` reads `(j, k)`. -/
theorem overRows_apply (y : S512x512.Idx → α) (h1 : S512x512.ShapeCasts S1x512x512) (h2 : S1x512x512.Broadcasts S8x512x512)
    (r : Fin 8) (j k : Fin 512) :
    broadcastTo S8x512x512 (shapeCast S1x512x512 y h1) h2 (ix3 r j k) = y (ix2 j k) := by
  refine (broadcastTo_apply _ h2 (ix3 r j k) (ix3 (0 : Fin 1) j k) fun a => ?_).trans ?_
  · match a with
    | ⟨0, _⟩ => show 0 = if (1 : ℕ) = 1 then 0 else r.val; rw [if_pos rfl]
    | ⟨1, _⟩ => show j.val = if (512 : ℕ) = 1 then 0 else j.val; rw [if_neg (by decide)]
    | ⟨2, _⟩ => show k.val = if (512 : ℕ) = 1 then 0 else k.val; rw [if_neg (by decide)]
  · refine shapeCast_apply y h1 _ (ix2 j k) ?_
    rw [Shape.rowMajor_val_two, Shape.rowMajor_val_three]
    show j.val * 512 + k.val = (0 * 512 + j.val) * 512 + k.val
    omega

/-- The lane sum over the last axis at `(r, j)`: the sum over `k` of the entries `(r, j, k)`. -/
theorem laneSum_apply (src : FVec Ideal S8x512x512 .f32) (h : S8x512x512.Reduces [2] S8x512) (hφ : FKind.Formats .f32)
    (hacc : (0x00000000#32 : BitVec 32) = FKind.add.neutral .f32 hφ) (r : Fin 8) (j : Fin 512) :
    multiReduction .add [2] S8x512 src 0x00000000#32 h hφ hacc (ix2 r j) = ∑ k : Fin 512, src (ix3 r j k) := by
  rw [Ideal.multiReduction_add_single]
  refine Finset.sum_congr rfl fun k _ => congrArg src (funext fun a => Fin.ext ?_)
  match a with
  | ⟨0, _⟩ => rfl
  | ⟨1, _⟩ => rfl
  | ⟨2, _⟩ => rfl

/-- The kernel's mask at `(j, k)`: the comparison `j ≠ k` of the two index grids, widened and converted. -/
theorem mask_apply (h0 : S512x512.Iotas .tc 32 [0]) (h1 : S512x512.Iotas .tc 32 [1]) (hw : 1 < 32) (j k : Fin 512) :
    (sitofp .f32 (extui 32 (cmpi .ne (iota .tc S512x512 32 [0] h0) (iota .tc S512x512 32 [1] h1)) hw) : FVec Ideal S512x512 .f32) (ix2 j k)
      = Spec.offDiag j k := by
  refine Eq.trans ?_ (Spec.mask_ker j k)
  show FloatOps.sitofp .f32 ((IntOp.cmpi .ne (BitVec.ofNat 32 (0 * 512 + j.val)) (BitVec.ofNat 32 (0 * 512 + k.val))).setWidth 32) = _
  rw [Nat.zero_mul, Nat.zero_add, Nat.zero_add]

/-- THE BODY AT AN INDEX: entry `(r, j)` of what the body stores is the rank sum of row `r` of the loaded block. -/
theorem pay_apply (x : FVec Ideal S8x512 .f32) (r : Fin 8) (j : Fin 512) :
    k1_pay1 (F := Ideal) x (ix2 r j) = Spec.rankRow (fun k => x (ix2 r k)) j := by
  unfold k1_pay1
  dsimp only
  rw [shapeCast_self]
  -- the outer addition and the lane sum
  refine (congrArg (fun s => FloatOps.addf s (FloatOps.ofBits .f32 0x3F800000#32)) (laneSum_apply _ _ _ _ r j)).trans ?_
  unfold Spec.rankRow
  rw [Ideal.addf_def, show FloatOps.ofBits (F := Ideal) .f32 0x3F800000#32 = 1 from Spec.ofBits_one]
  refine congrArg (· + 1) (Finset.sum_congr rfl fun k _ => ?_)
  -- one term of the sum: the three broadcasts read at (r, j, k), then the pointwise arithmetic
  refine (congrArg₂ (fun u w => FloatOps.mulf (FloatOps.maximumf u (FloatOps.ofBits .f32 0x00000000#32)) w)
    (congrArg₂ (fun a b => FloatOps.subf a b) (alongLast_apply x _ _ r j k) (alongMiddle_apply x _ _ r j k))
    ((overRows_apply _ _ _ r j k).trans (mask_apply _ _ _ j k))).trans ?_
  rw [Ideal.mulf_def, Ideal.maximumf_def, Ideal.subf_def, show FloatOps.ofBits (F := Ideal) .f32 0x00000000#32 = 0 from Spec.ofBits_zero]

end Cert.KernelIdeal.Region1

end
-- ==== Proof.Region1.lean ====
/-
  What the rank-sum region leaves in its output array, as ONE function of the array it reads.

  The region has 64 grid points; point `t` fetches rows `8 t … 8 t + 7` of the 512 × 512 input (all 512 columns),
  runs the body on that block, and writes the result back to the same rows of the output. The body's entry `(r, j)` is
  the rank sum of row `r` of the block, that is of row `8 t + r` of the input. So every written block is a block of
  the one function `rankAll S (p, j) = rankRow (S (p, ·)) j`, and the 64 blocks cover the output.
-/
import proofs.«169269_j20718922235946_1_alg».proof.Proof.Gen.KernelIdeal.Frame
import proofs.«169269_j20718922235946_1_alg».proof.Proof.Region1Pay
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)
open Cert.Spec (rankAll rankAll_apply)

theorem hz : (![0, 0] : Fin 2 → Nat) = fun _ => 0 := funext fun a => by fin_cases a <;> rfl

/-- The body on a block that is rows `8 b … 8 b + 7` of `S`, at `(r, j)`, is `rankAll S` at `(8 b + r, j)`. -/
theorem pay_block (S : S512x512.Idx → EReal) (x : FVec Ideal S8x512 .f32) (b : ℕ) (y : S8x512.Idx) (i : S512x512.Idx)
    (hx : ∀ (r : Fin 8) (k : Fin 512) (p : Fin 512), p.val = b * 8 + r.val → x (ix2 r k) = S (ix2 p k))
    (hi0 : (i 0).val = b * 8 + (y 0).val) (hi1 : (i 1).val = (y 1).val) :
    k1_pay1 (F := Ideal) x y = rankAll S i := by
  obtain ⟨r, j, rfl⟩ : ∃ (r : Fin 8) (j : Fin 512), y = ix2 r j := ⟨y 0, y 1, eq_ix2 y⟩
  obtain ⟨p, q, rfl⟩ : ∃ (p q : Fin 512), i = ix2 p q := ⟨i 0, i 1, eq_ix2 i⟩
  obtain rfl : q = j := Fin.ext hi1
  rw [pay_apply, rankAll_apply]
  exact congrArg (fun row => Spec.rankRow row q) (funext fun k => hx r k p hi0)

variable (V : (c : Dev nD) → (b : Ref sig .tc) → Buf (Elt Ideal) ((c : Thread nD τ).loc b))

/-- The two windows' index maps, decided over the 64 points: point `t` is at block row `t`, block column 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, win1_0.index t (0 : Fin 2) = t.val ∧ win1_0.index t (1 : Fin 2) = 0
    ∧ win1_1.index t (0 : Fin 2) = t.val ∧ win1_1.index t (1 : Fin 2) = 0)

/-- WHAT POINT `t` WRITES BACK is block `t` of `rankAll` of the input array as the region finds it. -/
theorem flushed_eq (c : Dev nD) (t : Fin cfg1.N) :
    (dat1 V c).flushed 1 t = ((cfg1.win 1).blk t).view.read (Elt Ideal) (rankAll (V c main_v0)) := by
  show (cfg1.win 1).cut (grid1.coords t) ((dat1 V c).after 1 t) = _
  rw [after1_1]
  unfold out1_1
  rw [View.canon_unit_zero hz]
  simp only [View.ld_unit_zero (S := S8x512) hz]
  obtain ⟨e00, e01, e10, e11⟩ := idx_facts t
  funext y
  show k1_pay1 (F := Ideal) (iblk1 V c 0 t) y = rankAll (V c main_v0) (((cfg1.win 1).blk t).view.emb y)
  refine pay_block (V c main_v0) (iblk1 V c 0 t) t.val y _ (fun r k p hp => ?_) ?_ ?_
  · show V c main_v0 (((cfg1.win 0).blk t).view.emb (ix2 r k)) = V c main_v0 (ix2 p k)
    refine congrArg (V c main_v0) (funext fun a => Fin.ext ?_)
    match a with
    | ⟨0, _⟩ => show win1_0.index t (0 : Fin 2) * 8 + 1 * r.val = p.val; rw [e00, hp]; omega
    | ⟨1, _⟩ => show win1_0.index t (1 : Fin 2) * 512 + 1 * k.val = k.val; rw [e01]; omega
  · show win1_1.index t (0 : Fin 2) * 8 + 1 * (y 0).val = t.val * 8 + (y 0).val; rw [e10]; omega
  · show win1_1.index t (1 : Fin 2) * 512 + 1 * (y 1).val = (y 1).val; rw [e11]; omega

/-- An index of the output array is in point `t`'s block iff each coordinate is in the block's range on its axis. -/
theorem mem_blk (t : Fin cfg1.N) (i : S512x512.Idx) :
    i ∈ ((cfg1.win 1).blk t).view.set ↔ ∀ a : Fin 2, win1_1.index t a * S8x512.size a ≤ (i a).val ∧ (i a).val < win1_1.index t a * S8x512.size a + S8x512.size a := by
  show i ∈ ((View.whole main_v1).slice (win1_1.rect t)).set ↔ _
  rw [View.set_slice_whole, Rect.mem_set_unit]
  exact Iff.rfl

/-- Row `p` of the output lies in the block of point `p / 8`: the 64 blocks cover the array. -/
theorem cover (i : S512x512.Idx) : ∃ t : Fin cfg1.N, (cfg1.win 1).flush t = true ∧ i ∈ ((cfg1.win 1).blk t).view.set := by
  have hi0 : (i 0).val < 512 := (i 0).isLt
  have hi1 : (i 1).val < 512 := (i 1).isLt
  have hN : cfg1.N = 64 := N_1
  let t : Fin cfg1.N := ⟨(i 0).val / 8, by rw [hN]; omega⟩
  obtain ⟨-, -, e10, e11⟩ := idx_facts t
  have ht : t.val = (i 0).val / 8 := rfl
  refine ⟨t, flush1_1 t, ?_⟩
  rw [mem_blk]
  intro a
  match a with
  | ⟨0, _⟩ => show win1_1.index t (0 : Fin 2) * 8 ≤ (i 0).val ∧ (i 0).val < win1_1.index t (0 : Fin 2) * 8 + 8; rw [e10, ht]; omega
  | ⟨1, _⟩ => show win1_1.index t (1 : Fin 2) * 512 ≤ (i 1).val ∧ (i 1).val < win1_1.index t (1 : Fin 2) * 512 + 512; rw [e11]; omega

/-- THE OUTPUT ARRAY after the region: the rank sums of every row of the input array. -/
theorem final (c : Dev nD) : (dat1 V c).arrAt 1 cfg1.N = rankAll (V c main_v0) :=
  (dat1 V c).arrAt_eq_of_cover 1 (rankAll (V c main_v0)) (fun t _ => flushed_eq V c t) cover

end Cert.KernelIdeal.Region1

end
-- ==== Proof.KernelValue.lean ====
/-
  The kernel program's run with its result as a closed term of the two arguments.

  The run ends with the result buffer at the last boundary's contents, which are the chain `tail` applied to what the
  second region leaves in three buffers. The two arguments are left as launched by both regions (each reads them
  through an input window or not at all). The second region's output is `rankAll` of its input array, which is the
  first region's output, `simAll` of the two arguments. So the result is
  `tail a0 a1 (rankAll (simAll a0 a1))`.
-/
import proofs.«169269_j20718922235946_1_alg».proof.Proof.KernelRun
import proofs.«169269_j20718922235946_1_alg».proof.Proof.KernelTail
import proofs.«169269_j20718922235946_1_alg».proof.Proof.Region0
import proofs.«169269_j20718922235946_1_alg».proof.Proof.Region1

set_option maxRecDepth 16384

noncomputable section

namespace Cert.KernelIdeal.ValueV

open Cert.KernelIdeal Cert.KernelIdeal.Gen Idealize.ShloMosaic Idealize.ShloMosaic.TcCoe Idealize.SL.Sem
open Idealize.ShloMosaic.Pipeline (Dat)
open Cert.Spec (rankAll simAll)

variable (m : (ℓ : Loc nD τ sig) → Buf (Elt Ideal) ℓ) (ρ : Dev nD → PrngReg)

/-- The first argument after both regions is as launched. -/
theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- The second argument after both regions is as launched. -/
theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-- What the second region reads: the first region's output, all pairwise similarities of the arguments' rows. -/
theorem V1_v0 (c : Dev nD) :
    V1 m ρ c main_v0 = simAll (m ((c : Thread nD τ).loc main_arg0)) (m ((c : Thread nD τ).loc main_arg1)) :=
  (W1_arr m ρ c 2).trans (Region0.final (V0 m ρ) c)

/-- The second region's output after both regions: the rank sums of the similarities. -/
theorem W2_v1 (c : Dev nD) : W2 m ρ c (Proc.devRef .tc main_v1)
    = rankAll (simAll (m ((c : Thread nD τ).loc main_arg0)) (m ((c : Thread nD τ).loc main_arg1))) :=
  (W2_arr m ρ c 1).trans ((Region1.final (V1 m ρ) c).trans (congrArg rankAll (V1_v0 m ρ c)))

/-- THE RUN, READ: the result buffer ends at `tail a0 a1 (rankAll (simAll a0 a1))`, the arguments unchanged. -/
theorem run : θ_run defs (onTc (τ := τ) (main (F := Ideal))) ⟨m, fun _ => 0, ρ⟩ (fun r => ∀ c : Dev nD,
      r.2.mem ((c.tc : Thread nD τ).loc main_v45)
        = Cert.ReferenceIdeal.Tail.tail (F := Ideal) (m ((c.tc : Thread nD τ).loc main_arg0)) (m ((c.tc : Thread nD τ).loc main_arg1))
            (rankAll (simAll (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans ((TailV.W5_result m ρ c).trans (by rw [W2_arg0, W2_arg1, W2_v1])), (h c).2⟩)
    (RunV.run_result m ρ)

end Cert.KernelIdeal.ValueV

end
-- ==== Proof.RefRank.lean ====
/-
  The reference's rank sums, read at an index.

  The reference forms `sim = a0 · a1ᵀ` by a transpose and a `dot_general`, then the 512 × 512 × 512 array of
  differences `sim (p, k) − sim (p, j)` by two broadcasts, clamps it at zero, multiplies by the mask `1 − [j = k]`
  broadcast over `p`, sums over `k` from the initial value `0`, and adds `1`. Read at `(p, j)`, one host operation at
  a time, this is `rankRow (sim p ·) j`: the array is `rankAll (simAll a0 a1)`.
-/
import proofs.«169269_j20718922235946_1_alg».proof.Proof.Gen.ReferenceIdeal.Read
import proofs.«169269_j20718922235946_1_alg».proof.Proof.Tail
import proofs.«169269_j20718922235946_1_alg».proof.Proof.Spec

noncomputable section

open scoped BigOperators

namespace Cert.ReferenceIdeal.RefRank

open Cert.ReferenceIdeal Cert.ReferenceIdeal.Gen Cert.ReferenceIdeal.Read Idealize.ShloMosaic Idealize.ShloMosaic.TcCoe Idealize.ShloMosaic.ValueIdx

/-- The reference's similarities at `(p, q)`: `∑ d, a0 (p, d) · a1 (q, d)` (the transpose read back). -/
theorem sim_apply (a0 a1 : (⟨S512x512, .f32⟩ : BufTy).Contents (Elt Ideal)) (p q : Fin 512) :
    val_main_v1 (F := Ideal) a0 a1 (ix2 p q) = Spec.sim a0 a1 p q := by
  rw [val_main_v1_apply]
  unfold Spec.sim
  refine Finset.sum_congr rfl fun d _ => ?_
  rw [val_main_v0_apply]
  refine congrArg₂ (· * ·) (congrArg a0 (funext fun a => Fin.ext ?_)) (congrArg a1 (funext fun a => Fin.ext ?_))
  · match a with
    | ⟨0, _⟩ => rfl
    | ⟨1, _⟩ => rfl
  · match a with
    | ⟨0, _⟩ => rfl
    | ⟨1, _⟩ => rfl

/-- The reference's rank sums at `(p, j)`. -/
theorem rank_apply (a0 a1 : (⟨S512x512, .f32⟩ : BufTy).Contents (Elt Ideal)) (p j : Fin 512) :
    val_main_v21 (F := Ideal) a0 a1 (ix2 p j) = Spec.rankRow (fun k => Spec.sim a0 a1 p k) j := by
  rw [val_main_v21_apply, val_main_v19_apply, val_main_v20_apply, val_main_cst_1_apply, val_main_cst_0_apply]
  unfold Spec.rankRow
  rw [Ideal.addf_def, show FloatOps.ofBits (F := Ideal) .f32 0x3F800000#32 = 1 from Spec.ofBits_one,
    show FloatOps.ofBits (F := Ideal) .f32 0x00000000#32 = 0 from Spec.ofBits_zero, zero_add]
  refine congrArg (· + 1) (Finset.sum_congr rfl fun k _ => ?_)
  rw [val_main_v18_apply, val_main_v15_apply, val_main_v6_apply, val_main_v4_apply, val_main_v2_apply, val_main_v5_apply,
    val_main_v3_apply, val_main_call0_v0_apply, val_main_call0_cst_apply, val_main_v17_apply, val_main_v16_apply,
    val_main_v14_apply, val_main_v13_apply, val_main_cst_apply, val_main_v12_apply, val_main_v11_apply, val_main_v10_apply,
    val_main_v7_apply, val_main_v9_apply, val_main_c_apply, val_main_v8_apply]
  -- the two broadcasts of the similarities read (p, k) and (p, j)
  have e1 : idx_main_v2 (idx_main_v4 (idx_main_v19 (ix2 p j) k)) = ix2 p k := funext fun a => Fin.ext (by
    match a with
    | ⟨0, _⟩ => rfl
    | ⟨1, _⟩ => rfl)
  have e2 : idx_main_v3 (idx_main_v5 (idx_main_v19 (ix2 p j) k)) = ix2 p j := funext fun a => Fin.ext (by
    match a with
    | ⟨0, _⟩ => rfl
    | ⟨1, _⟩ => rfl)
  rw [e1, e2, sim_apply, sim_apply]
  -- the mask's broadcast reads (j, k)
  refine (congrArg (fun w => FloatOps.mulf (FloatOps.maximumf (FloatOps.subf (Spec.sim a0 a1 p k) (Spec.sim a0 a1 p j))
    (FloatOps.ofBits .f32 0x00000000#32)) w) (Spec.mask_ref j k)).trans ?_
  rw [Ideal.mulf_def, Ideal.maximumf_def, Ideal.subf_def, show FloatOps.ofBits (F := Ideal) .f32 0x00000000#32 = 0 from Spec.ofBits_zero]

/-- THE REFERENCE'S RANK SUMS as an array: `rankAll (simAll a0 a1)`. -/
theorem rank_eq (a0 a1 : (⟨S512x512, .f32⟩ : BufTy).Contents (Elt Ideal)) :
    Tail.rankRef (F := Ideal) a0 a1 = Spec.rankAll (Spec.simAll a0 a1) := by
  funext i
  obtain ⟨p, j, rfl⟩ : ∃ (p j : Fin 512), i = ix2 p j := ⟨i 0, i 1, eq_ix2 i⟩
  exact (show Tail.rankRef (F := Ideal) a0 a1 (ix2 p j) = val_main_v21 (F := Ideal) a0 a1 (ix2 p j) from rfl).trans (rank_apply a0 a1 p j)

end Cert.ReferenceIdeal.RefRank

end
-- ==== Proof.lean ====
/-
  SmoothAP loss: the kernel program against its jnp reference, over the extended reals.

  Both programs compute, from two 512 × 512 arrays `a0`, `a1`,
      `tail a0 a1 R`      with      `R = rankAll (simAll a0 a1)`,
  where `simAll a0 a1 (p, q) = ∑ d, a0 (p, d) · a1 (q, d)` are all pairwise similarities,
  `rankAll S (p, j) = (∑ k, max (S (p, k) − S (p, j)) 0 · [j ≠ k]) + 1` are the rank sums, and `tail` is the common chain
  of host operations (per-class similarities and rank sums, the diagonal blocks of `R` by a gather, a quotient, a total
  sum, two divisions and a subtraction from one).
    * The kernel program forms `simAll` in a one-point matmul region and `rankAll` in a 64-point region over blocks of 8
      rows, its mask an integer comparison `j ≠ k` converted to a float.
    * The reference forms `simAll` by a transpose and a `dot_general`, and `rankAll` through a 512 × 512 × 512
      intermediate, its mask `1 − [j = k]`.
  At the extended reals a change of float format is the identity and both matrix products are the same sums, the two
  masks are the same 0/1 array, and both sums over `k` have the same terms: the arrays `R` agree index by index with no
  appeal to finiteness, and the tail is never opened. The ideal pass rewrote nothing, so `preserves` is trivial.
-/
import proofs.«169269_j20718922235946_1_alg».proof.Defs
import proofs.«169269_j20718922235946_1_alg».proof.Proof.Gen.Kernel
import proofs.«169269_j20718922235946_1_alg».proof.Proof.Gen.Kernel.Frame
import proofs.«169269_j20718922235946_1_alg».proof.Proof.Gen.KernelIdeal
import proofs.«169269_j20718922235946_1_alg».proof.Proof.Gen.KernelIdeal.Frame
import proofs.«169269_j20718922235946_1_alg».proof.Proof.Gen.ReferenceIdeal
import proofs.«169269_j20718922235946_1_alg».proof.Proof.Gen.ReferenceIdeal.Run
import proofs.«169269_j20718922235946_1_alg».proof.Proof.Gen.Pre_finite_inputs
import proofs.«169269_j20718922235946_1_alg».proof.Proof.KernelValue
import proofs.«169269_j20718922235946_1_alg».proof.Proof.RefRank
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs and leaves its arguments unchanged (the generated frame). -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result `tail a0 a1 (rankAll (simAll a0 a1))`: the kernel program by its two regions'
    values and the tail read off its host operations, the reference by its run, whose term is `tail a0 a1` of its own
    rank sums, equal to `rankAll (simAll a0 a1)` index by index. -/
theorem algebraic : Cert.algebraic_KernelIdeal_ReferenceIdeal := by
  intro m ρ m' ρ' _ hagree
  refine ⟨_, Cert.KernelIdeal.ValueV.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact congrArg (Cert.ReferenceIdeal.Tail.tail (F := Ideal) _ _) (Cert.ReferenceIdeal.RefRank.rank_eq _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
